-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8192x128 .f32) (main_arg1 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S8192x128 : Shape := ⟨2, ![8192, 128]⟩
abbrev S128x128 : Shape := ⟨2, ![128, 128]⟩
abbrev S_ : Shape := ⟨0, ![]⟩
abbrev S8192 : Shape := ⟨1, ![8192]⟩
abbrev S8192x1 : Shape := ⟨2, ![8192, 1]⟩
abbrev S512x128 : Shape := ⟨2, ![512, 128]⟩
abbrev S128x512 : Shape := ⟨2, ![128, 512]⟩
abbrev S512x512 : Shape := ⟨2, ![512, 512]⟩

abbrev nBuf : Space → Nat
  | .hbm => 14
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x128, .f32⟩
  | .hbm, ⟨13, _⟩ => ⟨S8192x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg0 : BitVec 32 := BitVec.ofNat 32 (i 0).val
  let c512_i32 : BitVec 32 := 512#32
  let v3 : BitVec 32 := Scalar.muli arg0 c512_i32
  v3
def k0_mult2 (i : grid0.Coords) : BitVec 32 :=
  let arg1 : BitVec 32 := BitVec.ofNat 32 (i 1).val
  let c512_i32_1 : BitVec 32 := 512#32
  let v5 : BitVec 32 := Scalar.muli arg1 c512_i32_1
  v5
def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : BitVec 32 := v3
  let v7 : Index := Scalar.indexCast v4
  let c0 : Index := 0#32
  ![v7.toNat, 0]
def k0_off2 (i : grid0.Coords) : Fin 2 → Nat :=
  let arg1 : BitVec 32 := BitVec.ofNat 32 (i 1).val
  let c512_i32_1 : BitVec 32 := 512#32
  let v5 : BitVec 32 := Scalar.muli arg1 c512_i32_1
  let v6 : BitVec 32 := v5
  let v10 : Index := Scalar.indexCast v6
  let c0_2 : Index := 0#32
  ![v10.toNat, 0]
def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_13 : BitVec 32 := 0#32
  let v43 : BitVec 1 := Scalar.cmpi .ne v42 c0_i32_13
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S128x128_S128x128_1_0 : S128x128.Transposes [1, 0] S128x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  natLt_1_32 : 1 < 32
  iota_S512x512_d0_w32 : S512x512.Iotas .tc 32 [0]
  iota_S512x512_d1_w32 : S512x512.Iotas .tc 32 [1]
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S512x128_S128x512_S512x512_1_0_0_1_n_n_wf : DotDims.WF S512x128 S128x512 S512x512 [1] [0] [0] [1] [] []
  dot_S512x512_S512x128_S512x128_1_0_0_1_n_n_wf : DotDims.WF S512x512 S512x128 S512x128 [1] [0] [0] [1] [] []
  dot_S512x128_S128x128_S512x128_1_0_0_1_n_n_wf : DotDims.WF S512x128 S128x128 S512x128 [1] [0] [0] [1] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x128.size a ≤ S8192x128.size a
  k0_off2_inb : ∀ i : grid0.Coords, ∀ a, (k0_off2 i) a + S512x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x128.size a
  hwx0_3 : ∀ i : grid0.Coords, EltTy.bits .f32 = 32 ∨ (Rect.block (s := S8192x128) S512x128.size (cc0_transform_3 i) (hinb0_3 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v4) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S128x128 : Shape := ⟨2, ![128, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .i1⟩
  | .hbm, ⟨18, _⟩ => ⟨S8192x8192, .f32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x128, .f32⟩
  | .hbm, ⟨31, _⟩ => ⟨S128x128, .f32⟩
  | .hbm, ⟨32, _⟩ => ⟨S8192x128, .f32⟩
  | .hbm, ⟨33, _⟩ => ⟨S_, .f32⟩
  | .hbm, ⟨34, _⟩ => ⟨S8192x128, .f32⟩
  | .hbm, ⟨35, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_cst : Ref sig .tc := ⟨.hbm, 33, rfl⟩
abbrev main_call1_v0 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  transposes_S128x128_S128x128_1_0 : S128x128.Transposes [1, 0] S128x128
  bcast_S_S8192x128 : S_.BroadcastsInDim S8192x128 (![] : Fin 0 → Fin S8192x128.rank)
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.KernelPieces.lean ====
/-
  What one grid point leaves behind, case by case, as the body's arithmetic applied to what it loaded.

  A point loads three stretches of 512 rows: rows `512·i₀ …` of the normalised features (`rowBlock`, the point's own
  rows), and rows `512·i₁ …` of the normalised and of the raw features (`colBlock`, the rows whose numbers are the
  point's columns). At the first column block the accumulator is first cleared, so the update is applied to zero; at
  every other column block it is applied to what the point before left; at the last column block the finished
  accumulator is multiplied into the weights and stored to the output block.
-/
import proofs.«115933_j65481071402387_1_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic

variable {F : FTy → Type} [FloatOps F]

theorem zero_off : (![0, 0] : Fin S512x128.rank → Nat) = fun _ => 0 := by
  funext a; match a with | ⟨0, _⟩ => rfl | ⟨1, _⟩ => rfl

theorem zero_off_w : (![0, 0] : Fin S128x128.rank → Nat) = fun _ => 0 := by
  funext a; match a with | ⟨0, _⟩ => rfl | ⟨1, _⟩ => rfl

/-- The 512 rows of an 8192-row array that belong to the point's row block. -/
abbrev rowBlock (i : grid0.Coords) (X : Vec F S8192x128 .f32) : Vec F S512x128 .f32 :=
  View.ld X (Rect.unit (s := S8192x128) (k0_off1 i) S512x128.size (k0_off1_inb i))

/-- The 512 rows of an 8192-row array whose numbers are the point's column block. -/
abbrev colBlock (i : grid0.Coords) (X : Vec F S8192x128 .f32) : Vec F S512x128 .f32 :=
  View.ld X (Rect.unit (s := S8192x128) (k0_off2 i) S512x128.size (k0_off2_inb i))

/-- The update a point applies to an accumulator value. -/
abbrev update (i : grid0.Coords) (x0 x1 : Vec F S8192x128 .f32) (acc : Vec F S512x128 .f32) : Vec F S512x128 .f32 :=
  k0_pay1 (k0_pay4 i (rowBlock i x0) (colBlock i x0) (colBlock i x1) acc)

/-- First column block: the accumulator is cleared, then updated. -/
theorem scratch_first (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S512x128 .f32) (harg5 : arg5.IsWhole) (arg6 : Memref sig .tc .vmem S512x128 .f32) (harg6 : arg6.IsWhole) (hc0 : cond0_0 i) (hc1 : ¬cond0_1 i)
    (x0 : Vec F S8192x128 .f32) (x1 : Vec F S8192x128 .f32) (x2 : Vec F S128x128 .f32) :
    sout0_A_0 c i arg2 harg2 arg3 harg3 arg4 harg4 arg5 harg5 arg6 harg6 hc0 hc1 x0 x1 x2 = update i x0 x1 (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x128) zero_off, View.readCov_unit_zero (S := S512x128) _ zero_off]
  simp only [View.readAt_eq_ld, harg2.read_unread, harg3.read_unread]
  rfl

/-- A middle column block: the accumulator the point before left, updated. -/
theorem scratch_middle (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S512x128 .f32) (harg5 : arg5.IsWhole) (arg6 : Memref sig .tc .vmem S512x128 .f32) (harg6 : arg6.IsWhole) (hc0 : ¬cond0_0 i) (hc1 : ¬cond0_1 i)
    (x0 : Vec F S8192x128 .f32) (x1 : Vec F S8192x128 .f32) (x2 : Vec F S128x128 .f32) (xs0 : Vec F S512x128 .f32) :
    sout0_B_0 c i arg2 harg2 arg3 harg3 arg4 harg4 arg5 harg5 arg6 harg6 hc0 hc1 x0 x1 x2 xs0 = update i x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero zero_off]
  simp only [View.readAt_eq_ld, harg2.read_unread, harg3.read_unread, harg6.read_unread, View.ld_unit_zero (S := S512x128) zero_off]
  rfl

/-- The last column block updates the accumulator in the same way … -/
theorem scratch_last (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S512x128 .f32) (harg5 : arg5.IsWhole) (arg6 : Memref sig .tc .vmem S512x128 .f32) (harg6 : arg6.IsWhole) (hc0 : ¬cond0_0 i) (hc1 : cond0_1 i)
    (x0 : Vec F S8192x128 .f32) (x1 : Vec F S8192x128 .f32) (x2 : Vec F S128x128 .f32) (xs0 : Vec F S512x128 .f32) :
    sout0_C_0 c i arg2 harg2 arg3 harg3 arg4 harg4 arg5 harg5 arg6 harg6 hc0 hc1 x0 x1 x2 xs0 = update i x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero zero_off]
  simp only [View.readAt_eq_ld, harg2.read_unread, harg3.read_unread, harg6.read_unread, View.ld_unit_zero (S := S512x128) zero_off]
  rfl

/-- … and stores to the output block the finished accumulator multiplied into the weights. -/
theorem out_last (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S512x128 .f32) (harg5 : arg5.IsWhole) (arg6 : Memref sig .tc .vmem S512x128 .f32) (harg6 : arg6.IsWhole) (hc0 : ¬cond0_0 i) (hc1 : cond0_1 i)
    (x0 : Vec F S8192x128 .f32) (x1 : Vec F S8192x128 .f32) (x2 : Vec F S128x128 .f32) (xs0 : Vec F S512x128 .f32) :
    out0_C_3 c i arg2 harg2 arg3 harg3 arg4 harg4 arg5 harg5 arg6 harg6 hc0 hc1 x0 x1 x2 xs0 = k0_pay2 (update i x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero zero_off, View.readCov_unit_zero (S := S512x128) _ zero_off]
  simp only [View.readAt_eq_ld, harg2.read_unread, harg3.read_unread, harg4.read_unread, harg6.read_unread,
    View.ld_unit_zero (S := S512x128) zero_off, View.ld_unit_zero (S := S128x128) zero_off_w]
  rfl

end Cert.KernelIdeal.Body

end
-- ==== Proof.Spec.lean ====
/-
  The graph aggregation that both programs compute, over the extended reals.

  Rows of the normalised feature matrix `xn` are compared pairwise: `gram r c` is the inner product of rows `r` and
  `c`, and two DISTINCT rows are joined by an edge of weight one when the square of that inner product reaches the
  threshold (`near`); a row is never joined to itself. Row `r` of the aggregate is the sum of the feature rows of
  its neighbours (`agg`), and the result is that aggregate times the transposed weight matrix, cut off below at
  zero (`out`).

  The module also holds the small facts that let two spellings of this function meet:
  * a one-bit word read as a number is 0 or 1, whether it is widened and read signed or read unsigned;
  * an edge weight written as "zero on the diagonal, else the test" equals the test times (1 − diagonal indicator),
    because the test is 0 or 1 and so the product never meets an infinity;
  * equality of two 32-bit words built from small naturals is equality of the naturals;
  * a sum over the 8192 columns is the sum over 16 consecutive blocks of 512 columns (addition on the extended reals
    is commutative and associative, so no term has to be finite).
-/
import Idealize.ShloMosaic.Lib.ValueIdx
import Idealize.ShloMosaic.PureOps.Ideal.Laws
import Mathlib.Algebra.BigOperators.Intervals
import Mathlib.Algebra.BigOperators.Fin

noncomputable section

namespace Cert.Graph

open Idealize.ShloMosaic Idealize.ShloMosaic.ValueIdx Finset

/-- Feature matrices: 8192 rows of 128 features. -/
abbrev SFeat : Shape := ⟨2, ![8192, 128]⟩
/-- The weight matrix. -/
abbrev SWgt : Shape := ⟨2, ![128, 128]⟩

/-- A natural number as a row number (taken modulo the number of rows, so that the function is total; it is only
    ever used below 8192). -/
def rowOf (n : ℕ) : Fin 8192 := ⟨n % 8192, Nat.mod_lt _ (by decide)⟩

theorem rowOf_val {n : ℕ} (h : n < 8192) : (rowOf n).val = n := Nat.mod_eq_of_lt h

theorem rowOf_fin (r : Fin 8192) : rowOf r.val = r := Fin.ext (rowOf_val r.isLt)

section Defs
variable (xn x : SFeat.Idx → EReal) (w : SWgt.Idx → EReal)

/-- The inner product of rows `r` and `c`. -/
def gram (r c : Fin 8192) : EReal := ∑ k : Fin 128, xn (ix2 r k) * xn (ix2 c k)

/-- The threshold test on the squared inner product, as a one-bit word. -/
def near (r c : Fin 8192) : BitVec 1 :=
  Ideal.cmp .oge (gram xn r c * gram xn r c) (Ideal.ofBits .f32 0x3B83126F#32)

/-- The edge weight between rows `r` and `c`: the test between distinct rows, zero on the diagonal. -/
def edge (r c : Fin 8192) : EReal := if r = c then 0 else (((near xn r c).toNat : ℝ) : EReal)

/-- Row `r`, feature `f` of the aggregate: the features of the neighbours of `r` added up. -/
def agg (r : Fin 8192) (f : Fin 128) : EReal := ∑ c : Fin 8192, edge xn r c * x (ix2 c f)

/-- The result at row `r`, output feature `o`. -/
def out (r : Fin 8192) (o : Fin 128) : EReal :=
  max (∑ f : Fin 128, agg xn x r f * w (ix2 o f)) (Ideal.ofBits .f32 0x00000000#32)

end Defs

/-! ## One-bit words as numbers -/

theorem bit_cases (b : BitVec 1) : b = 0#1 ∨ b = 1#1 := by
  by_cases h : b = 1#1
  · exact Or.inr h
  · exact Or.inl (eq_zero_of_ne_one h)

/-- A one-bit word widened to 32 bits and read as a signed integer is the bit read unsigned. -/
theorem toInt_setWidth_bit (b : BitVec 1) : ((b.setWidth 32).toInt : ℝ) = (b.toNat : ℝ) := by
  rcases bit_cases b with rfl | rfl
  · norm_num
  · norm_num

theorem one_word : Ideal.ofBits .f32 0x3F800000#32 = 1 := by
  simp [Ideal.ofBits, Ideal.ieee, -EReal.coe_mul]; norm_num

/-- A 0/1 weight times (1 − a 0/1 indicator) is zero where the indicator is set and the weight elsewhere. -/
theorem weight_mul_one_sub (b e : BitVec 1) :
    (((b.toNat : ℝ) : EReal)) * (Ideal.ofBits .f32 0x3F800000#32 - ((e.toNat : ℝ) : EReal))
      = if e = 1#1 then 0 else ((b.toNat : ℝ) : EReal) := by
  rw [one_word]
  rcases bit_cases e with rfl | rfl
  · rw [if_neg (by decide)]
    simp
  · rw [if_pos rfl]
    have : ((1 : EReal) - (((1#1 : BitVec 1).toNat : ℝ) : EReal)) = 0 := by
      rw [show (((1#1 : BitVec 1).toNat : ℝ) : EReal) = ((1 : ℝ) : EReal) by norm_num,
        show (1 : EReal) = ((1 : ℝ) : EReal) from rfl, ← EReal.coe_sub, sub_self, EReal.coe_zero]
    rw [this, mul_zero]

/-- The kernel's spelling: choose zero where the indicator is set, else the widened test read signed. -/
theorem select_zero_weight (d b : BitVec 1) :
    Scalar.select d (Ideal.ofBits .f32 0x00000000#32) ((((b.setWidth 32).toInt : ℝ)) : EReal)
      = if d = 1#1 then 0 else ((b.toNat : ℝ) : EReal) := by
  unfold Scalar.select
  rw [Ideal.ofBits_zero_f32, toInt_setWidth_bit]
  rfl

/-! ## Words compared -/

theorem cmpi_eq_one_iff (a b : BitVec 32) : IntOp.cmpi .eq a b = 1#1 ↔ a = b := by
  show BitVec.ofBool (a == b) = 1#1 ↔ a = b
  by_cases h : a = b
  · subst h; simp
  · have hb : (a == b) = false := by simp [h]
    rw [hb]
    exact iff_of_false (by decide) h

/-- Words built from naturals below 2³² are equal exactly when the naturals are. -/
theorem ofNat_eq_iff {a b : ℕ} (ha : a < 4294967296) (hb : b < 4294967296) :
    BitVec.ofNat 32 a = BitVec.ofNat 32 b ↔ a = b := by
  constructor
  · intro h
    have := congrArg BitVec.toNat h
    simp only [BitVec.toNat_ofNat] at this
    omega
  · rintro rfl; rfl

/-- A block number times 512 plus a place inside the block, computed in 32-bit words, is the row number. -/
theorem word_row (i p : ℕ) (hi : i < 16) (hp : p < 512) :
    IntOp.addi (Scalar.muli (BitVec.ofNat 32 i) 512#32) (BitVec.ofNat 32 p) = BitVec.ofNat 32 (i * 512 + p) := by
  unfold IntOp.addi Scalar.muli IntOp.muli
  apply BitVec.eq_of_toNat_eq
  simp only [BitVec.toNat_add, BitVec.toNat_mul, BitVec.toNat_ofNat]
  omega

/-- The diagonal test inside a block pair is the test on the row numbers. -/
theorem block_diag_iff (i j p q : ℕ) (hi : i < 16) (hj : j < 16) (hp : p < 512) (hq : q < 512) :
    IntOp.cmpi .eq (IntOp.addi (Scalar.muli (BitVec.ofNat 32 i) 512#32) (BitVec.ofNat 32 p))
        (IntOp.addi (Scalar.muli (BitVec.ofNat 32 j) 512#32) (BitVec.ofNat 32 q)) = 1#1
      ↔ i * 512 + p = j * 512 + q := by
  rw [cmpi_eq_one_iff, word_row i p hi hp, word_row j q hj hq, ofNat_eq_iff (by omega) (by omega)]

/-- The reference's diagonal test, over the whole matrix. -/
theorem whole_diag_iff (r c : ℕ) (hr : r < 8192) (hc : c < 8192) :
    IntOp.cmpi .eq (IntOp.addi (BitVec.ofNat 32 r) 0#32) (BitVec.ofNat 32 c) = 1#1 ↔ r = c := by
  rw [cmpi_eq_one_iff, show IntOp.addi (BitVec.ofNat 32 r) 0#32 = BitVec.ofNat 32 r by unfold IntOp.addi; simp,
    ofNat_eq_iff (by omega) (by omega)]

/-! ## A sum over the columns, block by block -/

/-- Consecutive blocks of `B` terms, `n` of them, make up the first `n·B` terms. -/
theorem sum_range_blocks (g : ℕ → EReal) (B : ℕ) :
    ∀ n : ℕ, ∑ s ∈ range n, ∑ κ ∈ range B, g (s * B + κ) = ∑ i ∈ range (n * B), g i
  | 0 => by simp
  | n + 1 => by
    rw [Finset.sum_range_succ, sum_range_blocks g B n, show (n + 1) * B = n * B + B by ring, Finset.sum_range_add]

/-- A sum over the 8192 columns is the sum over 16 blocks of 512 columns. -/
theorem sum_columns_blocks (g : Fin 8192 → EReal) :
    ∑ c : Fin 8192, g c = ∑ s ∈ range 16, ∑ q : Fin 512, g (rowOf (s * 512 + q.val)) := by
  have h1 : ∑ c : Fin 8192, g c = ∑ n ∈ range 8192, g (rowOf n) := by
    rw [← Fin.sum_univ_eq_sum_range (fun n => g (rowOf n)) 8192]
    exact Finset.sum_congr rfl fun c _ => by rw [rowOf_fin]
  rw [h1, show (8192 : ℕ) = 16 * 512 from rfl, ← sum_range_blocks (fun n => g (rowOf n)) 512 16]
  exact Finset.sum_congr rfl fun s _ => (Fin.sum_univ_eq_sum_range (fun κ => g (rowOf (s * 512 + κ))) 512).symm

end Cert.Graph

end
-- ==== Proof.KernelBlocks.lean ====
/-
  Where a grid point's loads land in the whole arrays.

  The grid is 16 × 16, walked row block by row block: point `t` has row block `t / 16` and column block `t % 16`.
  The three input windows hold whole arrays (their one block is the array), so what the body loads from a window is a
  stretch of rows of the array itself: the row block reads rows `(t / 16)·512 + p`, the column block rows
  `(t % 16)·512 + q`.
-/
import proofs.«115933_j65481071402387_1_alg».proof.Proof.KernelPieces
import proofs.«115933_j65481071402387_1_alg».proof.Proof.Spec

set_option maxRecDepth 16384

noncomputable section

namespace Cert.KernelIdeal.Body

open Cert.KernelIdeal Cert.KernelIdeal.Gen Idealize.ShloMosaic Idealize.ShloMosaic.TcCoe Idealize.ShloMosaic.ValueIdx
open Cert.Graph (rowOf rowOf_val)

variable {F : FTy → Type} [FloatOps F]
variable (m : (ℓ : Loc nD τ sig) → Buf (Elt F) ℓ)

/-- The arrays the region finds: the normalised features, the raw features, the transposed weights. -/
abbrev xnArr (c : Dev nD) : Vec F S8192x128 .f32 := V m c main_v4
abbrev xArr (c : Dev nD) : Vec F S8192x128 .f32 := V m c main_arg0
abbrev wtArr (c : Dev nD) : Vec F S128x128 .f32 := V m c main_v5

/-- The input windows' blocks at a point, at their literal types. -/
abbrev xnBlk (c : Dev nD) (t : Fin cfg0.N) : Vec F S8192x128 .f32 := iblk m c 0 t
abbrev xBlk (c : Dev nD) (t : Fin cfg0.N) : Vec F S8192x128 .f32 := iblk m c 1 t
abbrev wtBlk (c : Dev nD) (t : Fin cfg0.N) : Vec F S128x128 .f32 := iblk m c 2 t

/-- Every input window's block index is zero at every point. -/
theorem index_zero : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)

/-- The offsets of the body's two row loads at a point. -/
theorem load_offsets : ∀ t : Fin cfg0.N,
    (k0_off1 (grid0.coords t) 0 = t.val / 16 * 512 ∧ k0_off1 (grid0.coords t) 1 = 0)
    ∧ (k0_off2 (grid0.coords t) 0 = t.val % 16 * 512 ∧ k0_off2 (grid0.coords t) 1 = 0) :=
  (by decide +kernel : ∀ t : Fin grid0.N, _)

/-- The grid coordinates of a point. -/
theorem coords_val : ∀ t : Fin cfg0.N,
    (grid0.coords t 0).val = t.val / 16 ∧ (grid0.coords t 1).val = t.val % 16 :=
  (by decide +kernel : ∀ t : Fin grid0.N, _)

theorem xnBlk_apply (c : Dev nD) (t : Fin cfg0.N) (y : S8192x128.Idx) : xnBlk m c t y = xnArr m c y := by
  show V m c main_v4 (((cfg0.win 0).blk t).view.emb y) = V m c main_v4 y
  refine congrArg _ (funext fun a => Fin.ext ?_)
  match a with
  | ⟨0, _⟩ =>
    show win0_0.index t 0 * 8192 + 1 * (y 0).val = (y 0).val
    rw [(index_zero t).1.1]; omega
  | ⟨1, _⟩ =>
    show win0_0.index t 1 * 128 + 1 * (y 1).val = (y 1).val
    rw [(index_zero t).1.2]; omega

theorem xBlk_apply (c : Dev nD) (t : Fin cfg0.N) (y : S8192x128.Idx) : xBlk m c t y = xArr m c y := by
  show V m c main_arg0 (((cfg0.win 1).blk t).view.emb y) = V m c main_arg0 y
  refine congrArg _ (funext fun a => Fin.ext ?_)
  match a with
  | ⟨0, _⟩ =>
    show win0_1.index t 0 * 8192 + 1 * (y 0).val = (y 0).val
    rw [(index_zero t).2.1.1]; omega
  | ⟨1, _⟩ =>
    show win0_1.index t 1 * 128 + 1 * (y 1).val = (y 1).val
    rw [(index_zero t).2.1.2]; omega

theorem wtBlk_apply (c : Dev nD) (t : Fin cfg0.N) (y : S128x128.Idx) : wtBlk m c t y = wtArr m c y := by
  show V m c main_v5 (((cfg0.win 2).blk t).view.emb y) = V m c main_v5 y
  refine congrArg _ (funext fun a => Fin.ext ?_)
  match a with
  | ⟨0, _⟩ =>
    show win0_2.index t 0 * 128 + 1 * (y 0).val = (y 0).val
    rw [(index_zero t).2.2.1]; omega
  | ⟨1, _⟩ =>
    show win0_2.index t 1 * 128 + 1 * (y 1).val = (y 1).val
    rw [(index_zero t).2.2.2]; omega

/-- The row block of an array at point `t`: its rows `(t / 16)·512 + p`. -/
theorem rowBlock_apply (t : Fin cfg0.N) (X : Vec F S8192x128 .f32) (p : Fin 512) (k : Fin 128) :
    rowBlock (grid0.coords t) X (ix2 p k) = X (ix2 (rowOf (t.val / 16 * 512 + p.val)) k) := by
  have ht : t.val < 256 := lt_of_lt_of_eq t.isLt (show cfg0.N = 256 from N_0)
  refine congrArg X (funext fun a => Fin.ext ?_)
  match a with
  | ⟨0, _⟩ =>
    show k0_off1 (grid0.coords t) 0 + 1 * p.val = (rowOf (t.val / 16 * 512 + p.val)).val
    rw [(load_offsets t).1.1, rowOf_val (by have := p.isLt; omega)]; omega
  | ⟨1, _⟩ =>
    show k0_off1 (grid0.coords t) 1 + 1 * k.val = k.val
    rw [(load_offsets t).1.2]; omega

/-- The column block of an array at point `t`: its rows `(t % 16)·512 + q`. -/
theorem colBlock_apply (t : Fin cfg0.N) (X : Vec F S8192x128 .f32) (q : Fin 512) (k : Fin 128) :
    colBlock (grid0.coords t) X (ix2 q k) = X (ix2 (rowOf (t.val % 16 * 512 + q.val)) k) := by
  refine congrArg X (funext fun a => Fin.ext ?_)
  match a with
  | ⟨0, _⟩ =>
    show k0_off2 (grid0.coords t) 0 + 1 * q.val = (rowOf (t.val % 16 * 512 + q.val)).val
    rw [(load_offsets t).2.1, rowOf_val (by have := q.isLt; omega)]; omega
  | ⟨1, _⟩ =>
    show k0_off2 (grid0.coords t) 1 + 1 * k.val = k.val
    rw [(load_offsets t).2.2]; omega

end Cert.KernelIdeal.Body

end
-- ==== Proof.LibMatmulPlain.lean ====
/-
  A plain matrix product read at an index.

  For `l` of `M` rows and `K` columns and `r` of `K` rows and `N` columns, the product that contracts the columns of
  `l` with the rows of `r` into a zero accumulator has, at `(p, n)`, the inner product of row `p` of `l` with column
  `n` of `r`: `∑ k, l (p, k) * r (k, n)`. On the extended reals the accumulator's zero adds nothing, and the
  contraction index, which the dimension record keeps as a one-axis shape, is re-indexed by its one coordinate.
  Stated for the dimension record `DotDims.plain M K N`; a printed record with the same six lists is that record (its
  last field is a proof), so the lemma applies to it after a `show`.
-/
import Idealize.ShloMosaic.Lib.ValueIdx
import Idealize.ShloMosaic.PureOps.Ideal.Laws

noncomputable section

namespace Cert.LibMatmulPlain

open Idealize.ShloMosaic Idealize.ShloMosaic.ValueIdx

variable {M K N : ℕ}

/-- The left operand's index keeps the output's row. -/
theorem lhs_axis0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column is the contraction coordinate. -/
theorem lhs_axis1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_axis0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_axis1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The two operand indices over the output index `(p, n)` and the contraction coordinate `k`. -/
theorem lhsIdx_eq (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

theorem rhsIdx_eq (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ => exact (rhs_axis0 _ _).trans (contrEquiv1_symm_val (DotDims.plain M K N) K rfl rfl k)
    | ⟨1, _⟩ => exact rhs_axis1 _ _)

/-- `l · r` into the zero accumulator, at `(p, n)`: the inner product of row `p` of `l` and column `n` of `r`. -/
theorem matmul_zero_apply {φ₁ φ₂ : FTy} (l : FVec Ideal ⟨2, ![M, K]⟩ φ₁) (r : FVec Ideal ⟨2, ![K, N]⟩ φ₂)
    (prec : Option ContractPrecision) (p : Fin M) (n : Fin N) :
    FloatOps.matmul (DotDims.plain M K N) prec l r (constant ⟨2, ![M, N]⟩ .f32 0x00000000#32) (ix2 p n)
      = ∑ k : Fin K, l (ix2 p k) * r (ix2 k n) := by
  rw [Ideal.matmul_constant_zero_apply, ← Equiv.sum_comp (contrEquiv1 (DotDims.plain M K N) K rfl rfl).symm]
  exact Finset.sum_congr rfl fun k _ => by rw [lhsIdx_eq, rhsIdx_eq]

/-- The host's product of the same two matrices, at `(p, n)`: the same inner product, whatever the schedule. -/
theorem dotGeneral_apply {φ₁ φ₂ : FTy} (l : FVec Ideal ⟨2, ![M, K]⟩ φ₁) (r : FVec Ideal ⟨2, ![K, N]⟩ φ₂)
    (prec : Option ContractPrecision) (sched : HostSchedule) (p : Fin M) (n : Fin N) :
    FloatOps.dotGeneral (DotDims.plain M K N) prec sched l r (ix2 p n) = ∑ k : Fin K, l (ix2 p k) * r (ix2 k n) := by
  rw [Ideal.dotGeneral_apply, ← Equiv.sum_comp (contrEquiv1 (DotDims.plain M K N) K rfl rfl).symm]
  exact Finset.sum_congr rfl fun k _ => by rw [lhsIdx_eq, rhsIdx_eq]

end Cert.LibMatmulPlain

end
-- ==== Proof.KernelPayload.lean ====
/-
  The kernel body's arithmetic, read at an index.

  At a grid point the body takes 512 rows `a` of the normalised features (the point's row block), 512 rows `b` of them
  and 512 rows `d` of the raw features (both the point's column block), and the accumulator `acc`. It forms the
  512 × 512 matrix of inner products of the rows of `a` with the rows of `b`, squares it, tests it against the
  threshold, clears the entries whose global row and column numbers coincide, multiplies the resulting 0/1 matrix
  into `d` and adds the product to `acc` (`accumulate_apply`). At the last column block it multiplies the
  accumulator into the transposed weights and cuts off below at zero (`finish_apply`).
-/
import proofs.«115933_j65481071402387_1_alg».proof.Proof.Gen.KernelIdeal.Skeleton
import proofs.«115933_j65481071402387_1_alg».proof.Proof.LibMatmulPlain
import proofs.«115933_j65481071402387_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The inner product of row `p` of `a` with row `q` of `b`. -/
def rowDot (a b : FVec Ideal S512x128 .f32) (p q : Fin 512) : EReal := ∑ k : Fin 128, a (ix2 p k) * b (ix2 q k)

/-- The threshold test on its square. -/
def blockTest (a b : FVec Ideal S512x128 .f32) (p q : Fin 512) : BitVec 1 :=
  Ideal.cmp .oge (rowDot a b p q * rowDot a b p q) (Ideal.ofBits .f32 0x3B83126F#32)

/-- The 0/1 entry of the block pair `(i 0, i 1)` at `(p, q)`: zero where the global row and column coincide. -/
def blockEdge (i : grid0.Coords) (a b : FVec Ideal S512x128 .f32) (p q : Fin 512) : EReal :=
  if (i 0).val * 512 + p.val = (i 1).val * 512 + q.val then 0 else (((blockTest a b p q).toNat : ℝ) : EReal)

/-- The product of `a` with the transpose of `b`, at `(p, q)`. -/
theorem gram_apply (a b : FVec Ideal S512x128 .f32) (p q : Fin 512) :
    matmul (F := Ideal) (φ₁ := .f32) (φ₂ := .f32) dot_S512x128_S128x512_S512x512_1_0_0_1_n_n (some .fp32)
        (shapeCast S512x128 a shapeCasts_S512x128_S512x128)
        (transpose S128x512 [1, 0] (shapeCast S512x128 b shapeCasts_S512x128_S512x128) transposes_S512x128_p1_0_S128x512)
        (constant (F := Ideal) S512x512 .f32 0x00000000#32) (ix2 p q) = rowDot a b p q := by
  rw [shapeCast_self, shapeCast_self]
  refine (Cert.LibMatmulPlain.matmul_zero_apply (M := 512) (K := 128) (N := 512) a
    (transpose S128x512 [1, 0] b transposes_S512x128_p1_0_S128x512) (some .fp32) p q).trans ?_
  refine Finset.sum_congr rfl fun k _ => congrArg (a (ix2 p k) * ·) ?_
  exact transpose_apply [1, 0] b transposes_S512x128_p1_0_S128x512 (ix2 k q) (ix2 q k) (fun d => match d with
    | ⟨0, _⟩ => rfl
    | ⟨1, _⟩ => rfl)

/-- The accumulator after the point's update, at `(p, f)`: what it held plus the 0/1 row `p` of the block pair
    multiplied into column `f` of `d`. -/
theorem accumulate_apply (i : grid0.Coords) (a b d acc : FVec Ideal S512x128 .f32) (p : Fin 512) (f : Fin 128) :
    k0_pay4 (F := Ideal) i a b d acc (ix2 p f) = acc (ix2 p f) + ∑ q : Fin 512, blockEdge i a b p q * d (ix2 q f) := by
  unfold k0_pay4
  dsimp only
  refine congrArg (acc (ix2 p f) + ·) ?_
  refine (Cert.LibMatmulPlain.matmul_zero_apply (M := 512) (K := 512) (N := 128) _ _ none p f).trans ?_
  refine Finset.sum_congr rfl fun q _ => congrArg (· * d (ix2 q f)) ?_
  have hi0 : (i 0).val < 16 := (i 0).isLt
  have hi1 : (i 1).val < 16 := (i 1).isLt
  show Scalar.select
      (IntOp.cmpi .eq
        (IntOp.addi (Scalar.muli (BitVec.ofNat 32 (i 0).val) 512#32) (iota .tc S512x512 32 [0] iota_S512x512_d0_w32 (ix2 p q)))
        (IntOp.addi (Scalar.muli (BitVec.ofNat 32 (i 1).val) 512#32) (iota .tc S512x512 32 [1] iota_S512x512_d1_w32 (ix2 p q))))
      (Ideal.ofBits .f32 0x00000000#32)
      ((((Ideal.cmp .oge (_ * _) (Ideal.ofBits .f32 0x3B83126F#32)).setWidth 32).toInt : ℝ) : EReal) = _
  rw [iota_single_apply, iota_single_apply, gram_apply, Cert.Graph.select_zero_weight]
  unfold blockEdge blockTest
  exact if_congr (Cert.Graph.block_diag_iff (i 0).val (i 1).val p.val q.val hi0 hi1 p.isLt q.isLt) rfl rfl

/-- What is stored back into the accumulator is the updated value itself. -/
theorem store_eq (v : FVec Ideal S512x128 .f32) : k0_pay1 (F := Ideal) v = v := by
  unfold k0_pay1
  exact shapeCast_self _ _

/-- The value the accumulator is reset to at the first column block: zero everywhere. -/
theorem reset_apply (y : S512x128.Idx) : k0_pay3 (F := Ideal) y = 0 := by
  unfold k0_pay3
  rw [shapeCast_self]
  exact Ideal.ofBits_zero_f32

/-- At the last column block: the accumulator times the transposed weights `wt`, cut off below at zero. -/
theorem finish_apply (acc : FVec Ideal S512x128 .f32) (wt : FVec Ideal S128x128 .f32) (p : Fin 512) (o : Fin 128) :
    k0_pay2 (F := Ideal) acc wt (ix2 p o)
      = max (∑ f : Fin 128, acc (ix2 p f) * wt (ix2 f o)) (Ideal.ofBits .f32 0x00000000#32) := by
  unfold k0_pay2
  refine congrArg (max · (Ideal.ofBits .f32 0x00000000#32)) ?_
  rw [shapeCast_self]
  exact Cert.LibMatmulPlain.matmul_zero_apply (M := 512) (K := 128) (N := 128) acc wt none p o

end Cert.KernelIdeal.Body

end
-- ==== Proof.KernelScratch.lean ====
/-
  The accumulator over one row block's sixteen points.

  Point `n` adds to the accumulator, at `(p, f)`, the sum over the 512 columns `q` of its column block of the edge
  weight between row `(n / 16)·512 + p` and row `(n % 16)·512 + q` times feature `f` of that row (`addend`). The
  first point of a row block starts from zero, so after the point at offset `j` of the block the accumulator holds
  zero plus the addends of the block's points `0 … j`.
-/
import proofs.«115933_j65481071402387_1_alg».proof.Proof.Gen.KernelIdeal.Value
import proofs.«115933_j65481071402387_1_alg».proof.Proof.KernelBlocks
import proofs.«115933_j65481071402387_1_alg».proof.Proof.KernelPayload

set_option maxRecDepth 16384

noncomputable section

namespace Cert.KernelIdeal.Body

open Cert.KernelIdeal Cert.KernelIdeal.Gen Idealize.ShloMosaic Idealize.ShloMosaic.TcCoe Idealize.ShloMosaic.ValueIdx
open Cert.Graph (rowOf rowOf_val gram near edge)
open Cert.KernelIdeal.Value (scAt0_0 soutsAt0_0_eq)

variable (m : (ℓ : Loc nD τ sig) → Buf (Elt Ideal) ℓ)

/-- What point `n` adds to the accumulator at an index of the block. -/
def addend (c : Dev nD) (n : ℕ) (y : S512x128.Idx) : EReal :=
  ∑ q : Fin 512, edge (xnArr m c) (rowOf (n / 16 * 512 + (y 0).val)) (rowOf (n % 16 * 512 + q.val))
    * xArr m c (ix2 (rowOf (n % 16 * 512 + q.val)) (y 1))

/-- The inner products the body forms at a point are those of the rows the point stands for. -/
theorem rowDot_eq (c : Dev nD) (t : Fin cfg0.N) (p q : Fin 512) :
    rowDot (rowBlock (grid0.coords t) (xnBlk m c t)) (colBlock (grid0.coords t) (xnBlk m c t)) p q
      = gram (xnArr m c) (rowOf (t.val / 16 * 512 + p.val)) (rowOf (t.val % 16 * 512 + q.val)) := by
  unfold rowDot gram
  refine Finset.sum_congr rfl fun k _ => ?_
  have e1 := (rowBlock_apply t (xnBlk m c t) p k).trans (xnBlk_apply m c t _)
  have e2 := (colBlock_apply t (xnBlk m c t) q k).trans (xnBlk_apply m c t _)
  exact congrArg₂ (· * ·) e1 e2

/-- The 0/1 entry the body forms at a point is the edge weight between the rows the point stands for. -/
theorem blockEdge_eq (c : Dev nD) (t : Fin cfg0.N) (p q : Fin 512) :
    blockEdge (grid0.coords t) (rowBlock (grid0.coords t) (xnBlk m c t)) (colBlock (grid0.coords t) (xnBlk m c t)) p q
      = edge (xnArr m c) (rowOf (t.val / 16 * 512 + p.val)) (rowOf (t.val % 16 * 512 + q.val)) := by
  have ht : t.val < 256 := lt_of_lt_of_eq t.isLt (show cfg0.N = 256 from N_0)
  unfold blockEdge edge
  refine if_congr ?_ rfl ?_
  · rw [(coords_val t).1, (coords_val t).2, ← Fin.val_inj,
      rowOf_val (by have := p.isLt; omega), rowOf_val (by have := q.isLt; omega)]
  · unfold blockTest near
    rw [rowDot_eq]

/-- One point's update of an accumulator value, at an index. -/
theorem update_apply (c : Dev nD) (t : Fin cfg0.N) (acc : Vec Ideal S512x128 .f32) (p : Fin 512) (f : Fin 128) :
    update (grid0.coords t) (xnBlk m c t) (xBlk m c t) acc (ix2 p f) = acc (ix2 p f) + addend m c t.val (ix2 p f) := by
  show k0_pay1 (k0_pay4 (grid0.coords t) (rowBlock (grid0.coords t) (xnBlk m c t)) (colBlock (grid0.coords t) (xnBlk m c t))
    (colBlock (grid0.coords t) (xBlk m c t)) acc) (ix2 p f) = _
  rw [store_eq]
  refine (accumulate_apply (grid0.coords t) _ _ _ acc p f).trans (congrArg (acc (ix2 p f) + ·) ?_)
  unfold addend
  refine Finset.sum_congr rfl fun q _ => ?_
  have ed := blockEdge_eq m c t p q
  have xd := (colBlock_apply t (xBlk m c t) q f).trans (xBlk_apply m c t _)
  exact congrArg₂ (· * ·) ed xd

/-- After the first point of a row block: zero plus that point's addend. -/
theorem first_at (c : Dev nD) (t : Fin cfg0.N) (hc0 : cond0_0 (grid0.coords t)) (hc1 : ¬cond0_1 (grid0.coords t))
    (y : S512x128.Idx) :
    sout0_A_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) y
      = 0 + addend m c t.val y := by
  obtain ⟨p, f, rfl⟩ : ∃ (p : Fin 512) (f : Fin 128), y = ix2 p f := ⟨y 0, y 1, eq_ix2 y⟩
  refine (congrFun (scratch_first (F := Ideal) c (grid0.coords t) (ms0_0 t) (hs0_0 t) (ms0_1 t) (hs0_1 t) (ms0_2 t) (hs0_2 t) (ms0_3 t) (hs0_3 t) scM0_0 (Memref.isWhole_whole _) hc0 hc1
    (xnBlk m c t) (xBlk m c t) (wtBlk m c t)) (ix2 p f)).trans ?_
  refine (update_apply m c t (k0_pay3 (F := Ideal)) p f).trans ?_
  rw [reset_apply]

/-- After a later point that is not the block's last: what the point before left plus its addend. -/
theorem middle_at (c : Dev nD) (t : Fin cfg0.N) (hc0 : ¬cond0_0 (grid0.coords t)) (hc1 : ¬cond0_1 (grid0.coords t))
    (acc : Vec Ideal S512x128 .f32) (y : S512x128.Idx) :
    sout0_B_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) acc y
      = acc y + addend m c t.val y := by
  obtain ⟨p, f, rfl⟩ : ∃ (p : Fin 512) (f : Fin 128), y = ix2 p f := ⟨y 0, y 1, eq_ix2 y⟩
  refine (congrFun (scratch_middle (F := Ideal) c (grid0.coords t) (ms0_0 t) (hs0_0 t) (ms0_1 t) (hs0_1 t) (ms0_2 t) (hs0_2 t) (ms0_3 t) (hs0_3 t) scM0_0 (Memref.isWhole_whole _) hc0 hc1
    (xnBlk m c t) (xBlk m c t) (wtBlk m c t) acc) (ix2 p f)).trans ?_
  exact update_apply m c t acc p f

/-- After the block's last point: the same. -/
theorem last_at (c : Dev nD) (t : Fin cfg0.N) (hc0 : ¬cond0_0 (grid0.coords t)) (hc1 : cond0_1 (grid0.coords t))
    (acc : Vec Ideal S512x128 .f32) (y : S512x128.Idx) :
    sout0_C_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) acc y
      = acc y + addend m c t.val y := by
  obtain ⟨p, f, rfl⟩ : ∃ (p : Fin 512) (f : Fin 128), y = ix2 p f := ⟨y 0, y 1, eq_ix2 y⟩
  refine (congrFun (scratch_last (F := Ideal) c (grid0.coords t) (ms0_0 t) (hs0_0 t) (ms0_1 t) (hs0_1 t) (ms0_2 t) (hs0_2 t) (ms0_3 t) (hs0_3 t) scM0_0 (Memref.isWhole_whole _) hc0 hc1
    (xnBlk m c t) (xBlk m c t) (wtBlk m c t) acc) (ix2 p f)).trans ?_
  exact update_apply m c t acc p f

/-- The accumulator after point `t`: zero plus the addends of the points of `t`'s row block up to `t`. -/
theorem scratch_after (c : Dev nD) (t : Fin cfg0.N) (y : S512x128.Idx) :
    (outsAt0 m c t.val t.isLt).2 y
      = 0 + ∑ s ∈ Finset.range (t.val % 16 + 1), addend m c (16 * (t.val / 16) + s) y := by
  have hN : cfg0.N = 256 := N_0
  have ht : t.val < 256 := lt_of_lt_of_eq t.isLt hN
  rw [Cert.KernelIdeal.Value.soutsAt0_0_eq m c t]
  refine Pipeline.accAt_add_apply (ι := S512x128.Idx) (β := EReal)
    (fun n h => scAt0_0 m c n h (VS0_0.read (Elt Ideal) VS0_0.junk)) (scAt0_0 m c) (fun _ => 0) (addend m c)
    (16 * (t.val / 16)) 15 ?_ ?_ (t.val % 16) (by omega) _ y
  · intro h i
    have h0 : (16 * (t.val / 16)) % 16 = 0 := Nat.mul_mod_right 16 _
    have h1 : ¬(16 * (t.val / 16)) % 16 = 15 := by omega
    show scAt0_0 m c (16 * (t.val / 16)) h (VS0_0.read (Elt Ideal) VS0_0.junk) i = _
    unfold scAt0_0
    rw [dif_pos h0, dif_neg h1]
    exact first_at m c ⟨16 * (t.val / 16), h⟩ _ _ i
  · intro n h acc i hlo hhi
    have h0 : ¬n % 16 = 0 := by omega
    unfold scAt0_0
    rw [dif_neg h0]
    by_cases h1 : n % 16 = 15
    · rw [dif_pos h1]
      exact last_at m c ⟨n, h⟩ _ _ acc i
    · rw [dif_neg h1]
      exact middle_at m c ⟨n, h⟩ _ _ acc i

end Cert.KernelIdeal.Body

end
-- ==== Proof.KernelValue.lean ====
/-
  The kernel's result array.

  The output is written back once per row block, after its last point `t` (`t % 16 = 15`): the accumulator then
  holds zero plus the addends of all sixteen points of the row block, which is row `(t / 16)·512 + p` of the
  aggregate with its 8192 columns taken sixteen blocks of 512 at a time; multiplied into the transposed weights and
  cut off at zero it is the specification's row. The sixteen written blocks tile the array, so the array ends at the
  specification's result.
-/
import proofs.«115933_j65481071402387_1_alg».proof.Proof.KernelScratch

set_option maxRecDepth 16384

noncomputable section

namespace Cert.KernelIdeal.Body

open Cert.KernelIdeal Cert.KernelIdeal.Gen Idealize.ShloMosaic Idealize.ShloMosaic.TcCoe Idealize.ShloMosaic.ValueIdx
open Idealize.SL.Sem
open Idealize.ShloMosaic.Pipeline (Dat)
open Cert.Graph (rowOf rowOf_val edge agg out)

variable (m : (ℓ : Loc nD τ sig) → Buf (Elt Ideal) ℓ) (ρ : Dev nD → PrngReg)

/-- The weights as the specification indexes them (output feature first), read off the transposed array the region finds. -/
def wOf (c : Dev nD) : Cert.Graph.SWgt.Idx → EReal := fun j => wtArr m c (ix2 (j 1) (j 0))

/-- The specification's result over the arrays the region finds. -/
def result (c : Dev nD) : Vec Ideal S8192x128 .f32 :=
  fun i => out (xnArr m c) (xArr m c) (wOf m c) (i 0) (i 1)

/-- Zero plus the sixteen addends of row block `b` is the aggregate's row. -/
theorem row_total (c : Dev nD) (b : ℕ) (hb : b < 16) (p : Fin 512) (f : Fin 128) :
    0 + ∑ s ∈ Finset.range 16, addend m c (16 * b + s) (ix2 p f)
      = agg (xnArr m c) (xArr m c) (rowOf (b * 512 + p.val)) f := by
  unfold agg
  rw [Cert.Graph.sum_columns_blocks, zero_add]
  refine Finset.sum_congr rfl fun s hs => ?_
  have hs' : s < 16 := Finset.mem_range.mp hs
  have e1 : (16 * b + s) / 16 = b := by omega
  have e2 : (16 * b + s) % 16 = s := by omega
  unfold addend
  rw [e1, e2]

/-- The output window's block index: the row block, and column block zero. -/
theorem out_index : ∀ t : Fin cfg0.N, win0_3.index t (0 : Fin 2) = t.val / 16 ∧ win0_3.index t (1 : Fin 2) = 0 :=
  (by decide +kernel : ∀ t : Fin grid0.N, _)

/-- A 512 × 128 value whose entry `(p, o)` is entry `((t / 16)·512 + p, o)` of a whole array IS point `t`'s block
    of that array. -/
theorem block_of_rows (t : Fin cfg0.N) (X : Vec Ideal S512x128 .f32) (G : Vec Ideal S8192x128 .f32)
    (h : ∀ (p : Fin 512) (o : Fin 128), X (ix2 p o) = G (ix2 (rowOf (t.val / 16 * 512 + p.val)) o)) :
    (cfg0.win 3).cut (grid0.coords t) X = ((cfg0.win 3).blk t).view.read (Elt Ideal) G := by
  have ht : t.val < 256 := lt_of_lt_of_eq t.isLt (show cfg0.N = 256 from N_0)
  funext j
  show X j = G (((cfg0.win 3).blk t).view.emb j)
  have hj0 : (j 0).val < 512 := (j 0).isLt
  have hj1 : (j 1).val < 128 := (j 1).isLt
  refine ((congrArg X (eq_ix2 j)).trans (h (j 0) (j 1))).trans (congrArg G (funext fun a => Fin.ext ?_))
  match a with
  | ⟨0, _⟩ =>
    show (rowOf (t.val / 16 * 512 + (j 0).val)).val = win0_3.index t 0 * 512 + 1 * (j 0).val
    rw [(out_index t).1, rowOf_val (by omega)]; omega
  | ⟨1, _⟩ =>
    show (j 1).val = win0_3.index t 1 * 128 + 1 * (j 1).val
    rw [(out_index t).2]; omega

/-- What a flushing point writes back is its block of the specification's result. -/
theorem flushed_eq (c : Dev nD) (t : Fin cfg0.N) (hf : (cfg0.win 3).flush t = true) :
    (dats m 0 c).flushed 3 t = ((cfg0.win 3).blk t).view.read (Elt Ideal) (result m c) := by
  have ht : t.val < 256 := lt_of_lt_of_eq t.isLt (show cfg0.N = 256 from N_0)
  have h1 : t.val % 16 = 15 := (flush0_3 t).mp hf
  have h0 : ¬t.val % 16 = 0 := by omega
  -- the accumulator after this point is the update of what the point before left
  have hs : (outsAt0 m c t.val t.isLt).2
      = update (grid0.coords t) (xnBlk m c t) (xBlk m c t)
          (outsAt0 m c (t.val - 1) (Nat.lt_of_le_of_lt (Nat.sub_le _ _) t.isLt)).2 := by
    rw [outsAt0_C m c t h0 h1]; dsimp only
    exact scratch_last (F := Ideal) c (grid0.coords t) (ms0_0 t) (hs0_0 t) (ms0_1 t) (hs0_1 t) (ms0_2 t) (hs0_2 t) (ms0_3 t) (hs0_3 t) scM0_0 (Memref.isWhole_whole _) _ _ (xnBlk m c t) (xBlk m c t) (wtBlk m c t) _
  rw [Cert.KernelIdeal.Value.flushed3_C m c t h0 h1]
  refine block_of_rows t _ (result m c) fun p o => ?_
  refine (congrFun (out_last (F := Ideal) c (grid0.coords t) (ms0_0 t) (hs0_0 t) (ms0_1 t) (hs0_1 t) (ms0_2 t) (hs0_2 t) (ms0_3 t) (hs0_3 t) scM0_0 (Memref.isWhole_whole _) _ _ (xnBlk m c t) (xBlk m c t) (wtBlk m c t)
    (outsAt0 m c (t.val - 1) (Nat.lt_of_le_of_lt (Nat.sub_le _ _) t.isLt)).2) (ix2 p o)).trans ?_
  rw [← hs]
  refine (finish_apply _ _ p o).trans ?_
  unfold result out
  refine congrArg (max · (Ideal.ofBits .f32 0x00000000#32)) (Finset.sum_congr rfl fun f _ => ?_)
  have ea : (outsAt0 m c t.val t.isLt).2 (ix2 p f) = agg (xnArr m c) (xArr m c) (rowOf (t.val / 16 * 512 + p.val)) f := by
    rw [scratch_after m c t (ix2 p f), h1]
    exact row_total m c (t.val / 16) (by omega) p f
  have ew : wtBlk m c t (ix2 f o) = wOf m c (ix2 o f) := wtBlk_apply m c t (ix2 f o)
  exact congrArg₂ (· * ·) ea ew

/-- An index of the array is in point `t`'s block iff each coordinate is in the block's range on its axis. -/
theorem mem_block (t : Fin cfg0.N) (i : S8192x128.Idx) :
    i ∈ ((cfg0.win 3).blk t).view.set
      ↔ ∀ a : Fin 2, win0_3.index t a * S512x128.size a ≤ (i a).val ∧ (i a).val < win0_3.index t a * S512x128.size a + S512x128.size a := by
  show i ∈ ((View.whole main_v6).slice (win0_3.rect t)).set ↔ _
  rw [View.set_slice_whole, Rect.mem_set_unit]
  exact Iff.rfl

/-- Every index of the result is in the block of the last point of its row block. -/
theorem covered (i : S8192x128.Idx) :
    ∃ t : Fin cfg0.N, (cfg0.win 3).flush t = true ∧ i ∈ ((cfg0.win 3).blk t).view.set := by
  have hN : cfg0.N = 256 := N_0
  have hi0 : (i 0).val < 8192 := (i 0).isLt
  have hi1 : (i 1).val < 128 := (i 1).isLt
  let t : Fin cfg0.N := ⟨16 * ((i 0).val / 512) + 15, by rw [hN]; omega⟩
  have hv : t.val = 16 * ((i 0).val / 512) + 15 := rfl
  refine ⟨t, (flush0_3 t).mpr (by rw [hv]; omega), ?_⟩
  rw [mem_block]
  intro a
  match a with
  | ⟨0, _⟩ =>
    show win0_3.index t 0 * 512 ≤ (i 0).val ∧ (i 0).val < win0_3.index t 0 * 512 + 512
    rw [(out_index t).1, hv]; omega
  | ⟨1, _⟩ =>
    show win0_3.index t 1 * 128 ≤ (i 1).val ∧ (i 1).val < win0_3.index t 1 * 128 + 128
    rw [(out_index t).2]; omega

/-- The result array after the run is the specification's result. -/
theorem final (c : Dev nD) : (dats m 0 c).arrAt 3 cfg0.N = result m c :=
  (dats m 0 c).arrAt_eq_of_cover 3 (result m c) (flushed_eq m c) covered

/-- The kernel's run: the result array at the specification's result, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Body

end
-- ==== Proof.RefValue.lean ====
/-
  The reference program computes the specification.

  Its stages, read one at a time at an index: the matrix of inner products of the normalised rows is `gram`; the
  thresholded 0/1 matrix times (1 − identity) is `edge`; that matrix times the features is `agg`; and the result is
  `agg` times the transposed weights, cut off below at zero: `out`.
-/
import proofs.«115933_j65481071402387_1_alg».proof.Proof.Gen.ReferenceIdeal.Read
import proofs.«115933_j65481071402387_1_alg».proof.Proof.Spec

noncomputable section

namespace Cert.ReferenceIdeal.RefValue

open Cert.ReferenceIdeal Cert.ReferenceIdeal.Read Idealize.ShloMosaic Idealize.ShloMosaic.ValueIdx
open Cert.Graph (gram near edge agg out)

variable (x0 : FVec Ideal S8192x128 .f32) (x1 : FVec Ideal S128x128 .f32)

/-- The normalised features, as the reference computes them. -/
abbrev xn : FVec Ideal S8192x128 .f32 := val_main_v4 (F := Ideal) x0

theorem lidx6 (r c : Fin 8192) (k : Fin 128) : lidx_main_v6 (ix2 r c) k = ix2 r k :=
  funext fun a => Fin.ext (by match a with | ⟨0, _⟩ => rfl | ⟨1, _⟩ => rfl)
theorem ridx6 (r c : Fin 8192) (k : Fin 128) : idx_main_v5 (ridx_main_v6 (ix2 r c) k) = ix2 c k :=
  funext fun a => Fin.ext (by match a with | ⟨0, _⟩ => rfl | ⟨1, _⟩ => rfl)
theorem lidx20 (r : Fin 8192) (f : Fin 128) (c : Fin 8192) : lidx_main_v20 (ix2 r f) c = ix2 r c :=
  funext fun a => Fin.ext (by match a with | ⟨0, _⟩ => rfl | ⟨1, _⟩ => rfl)
theorem ridx20 (r : Fin 8192) (f : Fin 128) (c : Fin 8192) : ridx_main_v20 (ix2 r f) c = ix2 c f :=
  funext fun a => Fin.ext (by match a with | ⟨0, _⟩ => rfl | ⟨1, _⟩ => rfl)
theorem lidx22 (r : Fin 8192) (o f : Fin 128) : lidx_main_v22 (ix2 r o) f = ix2 r f :=
  funext fun a => Fin.ext (by match a with | ⟨0, _⟩ => rfl | ⟨1, _⟩ => rfl)
theorem ridx22 (r : Fin 8192) (o f : Fin 128) : idx_main_v21 (ridx_main_v22 (ix2 r o) f) = ix2 o f :=
  funext fun a => Fin.ext (by match a with | ⟨0, _⟩ => rfl | ⟨1, _⟩ => rfl)

/-- The product of the normalised features with their transpose is the matrix of inner products of rows. -/
theorem gram_eq (r c : Fin 8192) : val_main_v6 (F := Ideal) x0 (ix2 r c) = gram (xn x0) r c := by
  rw [val_main_v6_apply]
  unfold gram
  refine Finset.sum_congr rfl fun k _ => ?_
  rw [val_main_v5_apply, lidx6, ridx6]

/-- The thresholded matrix with its diagonal removed is the edge weight. -/
theorem edge_eq (r c : Fin 8192) : val_main_v19 (F := Ideal) x0 (ix2 r c) = edge (xn x0) r c := by
  rw [val_main_v19_apply, val_main_v10_apply, val_main_v9_apply, val_main_v7_apply, val_main_v8_apply,
    val_main_cst_0_apply, val_main_v18_apply, val_main_v17_apply, val_main_cst_1_apply, val_main_v16_apply,
    val_main_v15_apply, val_main_v14_apply, val_main_v11_apply, val_main_v13_apply, val_main_c_apply,
    val_main_v12_apply, gram_eq]
  show (((Ideal.cmp .oge (gram (xn x0) r c * gram (xn x0) r c) (Ideal.ofBits .f32 0x3B83126F#32)).toNat : ℝ) : EReal)
      * (Ideal.ofBits .f32 0x3F800000#32
          - (((IntOp.cmpi .eq (IntOp.addi (BitVec.ofNat 32 r.val) 0#32) (BitVec.ofNat 32 c.val)).toNat : ℝ) : EReal)) = _
  rw [Cert.Graph.weight_mul_one_sub]
  unfold edge near
  exact if_congr ((Cert.Graph.whole_diag_iff r.val c.val r.isLt c.isLt).trans Fin.val_inj) rfl rfl

/-- That matrix times the features is the aggregate. -/
theorem agg_eq (r : Fin 8192) (f : Fin 128) : val_main_v20 (F := Ideal) x0 (ix2 r f) = agg (xn x0) x0 r f := by
  rw [val_main_v20_apply]
  unfold agg
  refine Finset.sum_congr rfl fun c _ => ?_
  rw [lidx20, ridx20, edge_eq]

/-- The reference's result is the specification's. -/
theorem out_eq (r : Fin 8192) (o : Fin 128) :
    val_main_v23 (F := Ideal) x0 x1 (ix2 r o) = out (xn x0) x0 x1 r o := by
  rw [val_main_v23_apply, val_main_v22_apply, val_main_call1_v0_apply, val_main_call1_cst_apply]
  unfold out
  refine congrArg (max · (Ideal.ofBits .f32 0x00000000#32)) (Finset.sum_congr rfl fun f _ => ?_)
  rw [val_main_v21_apply, lidx22, ridx22, agg_eq]

end Cert.ReferenceIdeal.RefValue

end
-- ==== Proof.Bridge.lean ====
/-
  The two sides meet.

  Both programs begin with the same host lines: the row norms, the small constant added, the division. So the array
  of normalised features the kernel's region finds is the reference's own stage of the features argument, and the
  transposed weights it finds, read with the two coordinates exchanged, are the weights argument. With that the
  kernel's result and the reference's result are one function of the two arguments (`common`).
-/
import proofs.«115933_j65481071402387_1_alg».proof.Proof.KernelValue
import proofs.«115933_j65481071402387_1_alg».proof.Proof.RefValue
import Idealize.ShloMosaic.Lib.StableHlo.Run

set_option maxRecDepth 16384

noncomputable section

namespace Cert.Bridge

open Idealize.ShloMosaic Idealize.ShloMosaic.TcCoe Idealize.ShloMosaic.ValueIdx Idealize.SL.Sem
open Cert.Graph (out)

/-- The result both programs compute, as a function of the features and the weights. -/
def common (x0 : Cert.Graph.SFeat.Idx → EReal) (x1 : Cert.Graph.SWgt.Idx → EReal) : Cert.Graph.SFeat.Idx → EReal :=
  fun i => out (Cert.ReferenceIdeal.Read.val_main_v4 (F := Ideal) x0) x0 x1 (i 0) (i 1)

/-- The reference's last stage is the common result. -/
theorem reference_eq (x0 : FVec Ideal Cert.ReferenceIdeal.S8192x128 .f32) (x1 : FVec Ideal Cert.ReferenceIdeal.S128x128 .f32) :
    Cert.ReferenceIdeal.Read.val_main_v23 (F := Ideal) x0 x1 = common x0 x1 := by
  funext i
  rw [eq_ix2 i]
  exact Cert.ReferenceIdeal.RefValue.out_eq x0 x1 (i 0) (i 1)

section Kernel

open Cert.KernelIdeal Cert.KernelIdeal.Gen Cert.KernelIdeal.Body

variable (m : (ℓ : Loc nD τ sig) → Buf (Elt Ideal) ℓ)

/-- The normalised features the region finds are the reference's stage of the features argument. -/
theorem normalised_eq (c : Dev nD) :
    xnArr m c = Cert.ReferenceIdeal.Read.val_main_v4 (F := Ideal) (m ((c : Thread nD τ).loc main_arg0)) := by
  have e : (V m c main_v4 : S8192x128.Idx → EReal)
      = Cert.ReferenceIdeal.Read.val_main_v4 (F := Ideal) (m ((c : Thread nD τ).loc main_arg0)) := by
    dsimp only [V]
    simp only [hostOps0, hostOps0_1, List.flatten_cons, List.flatten_nil, List.append_nil, List.cons_append,
      List.nil_append]
    after_results
    all_goals rfl
  exact e

/-- The raw features the region finds are the argument. -/
theorem features_eq (c : Dev nD) : xArr m c = m ((c : Thread nD τ).loc main_arg0) := V_main_arg0 m c

/-- The transposed weights the region finds, read with the coordinates exchanged, are the argument. -/
theorem weights_eq (c : Dev nD) : wOf m c = m ((c : Thread nD τ).loc main_arg1) := by
  have e : (V m c main_v5 : S128x128.Idx → EReal)
      = transpose S128x128 [1, 0] (m ((c : Thread nD τ).loc main_arg1)) transposes_S128x128_S128x128_1_0 := by
    dsimp only [V]
    simp only [hostOps0, hostOps0_1, List.flatten_cons, List.flatten_nil, List.append_nil, List.cons_append,
      List.nil_append]
    after_results
    all_goals rfl
  funext j
  show V m c main_v5 (ix2 (j 1) (j 0)) = _
  rw [e]
  exact transpose_apply [1, 0] _ transposes_S128x128_S128x128_1_0 (ix2 (j 1) (j 0)) j (fun b => match b with
    | ⟨0, _⟩ => rfl
    | ⟨1, _⟩ => rfl)

/-- The kernel's result is the common result of its two arguments. -/
theorem kernel_eq (c : Dev nD) :
    result m c = common (m ((c : Thread nD τ).loc main_arg0)) (m ((c : Thread nD τ).loc main_arg1)) := by
  unfold result common
  rw [normalised_eq, features_eq, weights_eq]

end Kernel

end Cert.Bridge

end
-- ==== Proof.lean ====
/-
  A graph aggregation over thresholded squared cosine similarity, tiled against its plain form.

  Both programs normalise the 8192 feature rows, join two distinct rows by an edge when the square of their inner
  product reaches the threshold, add up each row's neighbours' features, multiply by the transposed weights and cut
  off below at zero. The tiled program walks a 16 × 16 grid of 512 × 512 blocks of the edge matrix, keeping for each
  row block an accumulator that starts at zero and receives one column block's contribution per point; the plain
  program forms the whole 8192 × 8192 matrix and contracts over all columns at once. Over the extended reals the
  two agree because addition is commutative and associative (the sixteen block sums are the one long sum), and because
  the edge weight is 0 or 1, so that "zero on the diagonal, else the test" and "the test times (1 − identity)" are the
  same number. No finiteness of the inputs is needed for that.

  The three frames are the generated ones (the reference's is its run with the result dropped); the idealization
  rewrote nothing.
-/
import proofs.«115933_j65481071402387_1_alg».proof.Defs
import proofs.«115933_j65481071402387_1_alg».proof.Proof.Gen.Kernel
import proofs.«115933_j65481071402387_1_alg».proof.Proof.Gen.Kernel.Skeleton
import proofs.«115933_j65481071402387_1_alg».proof.Proof.Gen.Kernel.Launch
import proofs.«115933_j65481071402387_1_alg».proof.Proof.Gen.Kernel.Points
import proofs.«115933_j65481071402387_1_alg».proof.Proof.Gen.Kernel.Frame
import proofs.«115933_j65481071402387_1_alg».proof.Proof.Gen.KernelIdeal
import proofs.«115933_j65481071402387_1_alg».proof.Proof.Gen.KernelIdeal.Skeleton
import proofs.«115933_j65481071402387_1_alg».proof.Proof.Gen.KernelIdeal.Launch
import proofs.«115933_j65481071402387_1_alg».proof.Proof.Gen.KernelIdeal.Points
import proofs.«115933_j65481071402387_1_alg».proof.Proof.Gen.KernelIdeal.Frame
import proofs.«115933_j65481071402387_1_alg».proof.Proof.Gen.ReferenceIdeal
import proofs.«115933_j65481071402387_1_alg».proof.Proof.Gen.Pre_finite_inputs
import proofs.«115933_j65481071402387_1_alg».proof.Proof.Gen.KernelIdeal.Value
import proofs.«115933_j65481071402387_1_alg».proof.Proof.Gen.ReferenceIdeal.Run
import proofs.«115933_j65481071402387_1_alg».proof.Proof.Gen.ReferenceIdeal.Read
import proofs.«115933_j65481071402387_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => Cert.Bridge.common (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      (θ_run Cert.KernelIdeal.defs _ _).mono (fun _ h c => ⟨(h c).1.trans (Cert.Bridge.kernel_eq m c), (h c).2⟩)
        (Cert.KernelIdeal.Body.run m ρ),
      (θ_run Cert.ReferenceIdeal.defs _ _).mono
        (fun _ h c => ⟨by
            rw [(h c).1, Cert.ReferenceIdeal.Read.val_main_v23_eq, Cert.Bridge.reference_eq, (hagree c).1, (hagree c).2], (h c).2⟩)
        (Cert.ReferenceIdeal.Value.run (F := Ideal) m' ρ')⟩⟩

end Cert.Proof

end
